-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x512x512 : Shape := ⟨4, ![32, 1, 512, 512]⟩
abbrev S_ : Shape := ⟨0, ![]⟩

class Facts : Prop where
  bcast_S_S32x1x512x512 : S_.BroadcastsInDim S32x1x512x512 (![] : Fin 0 → Fin S32x1x512x512.rank)
  reducesTo_S32x1x512x512_S_d0_1_2_3 : S32x1x512x512.ReducesTo [0, 1, 2, 3] S_
  h_S_ : 0 < S_.numel

variable [Facts]

def fn {F : FTy → Type} [FloatOps F] (main_arg0 : FVec F S32x1x512x512 .f32) (main_arg1 : FVec F S32x1x512x512 .f32) (main_arg2 : FVec F S32x1x512x512 .f32) : IVec S_ 1 :=
  let main_v0 : FVec F S32x1x512x512 .f32 := Host.absf main_arg0
  let main_cst : FVec F S_ .f32 := constant S_ .f32 0x7F800000#32
  let main_v1 : FVec F S32x1x512x512 .f32 := broadcastInDim S32x1x512x512 ![] bcast_S_S32x1x512x512 main_cst
  let main_v2 : IVec S32x1x512x512 1 := cmpf .olt main_v0 main_v1
  let main_c : IVec S_ 1 := constantI S_ 1 1#1
  let main_v3 : IVec S_ 1 := (fun x v => Host.reduce IntOp.andi x v reducesTo_S32x1x512x512_S_d0_1_2_3 h_S_) main_v2 main_c
  let main_v4 : FVec F S32x1x512x512 .f32 := Host.absf main_arg1
  let main_cst_0 : FVec F S_ .f32 := constant S_ .f32 0x7F800000#32
  let main_v5 : FVec F S32x1x512x512 .f32 := broadcastInDim S32x1x512x512 ![] bcast_S_S32x1x512x512 main_cst_0
  let main_v6 : IVec S32x1x512x512 1 := cmpf .olt main_v4 main_v5
  let main_c_1 : IVec S_ 1 := constantI S_ 1 1#1
  let main_v7 : IVec S_ 1 := (fun x v => Host.reduce IntOp.andi x v reducesTo_S32x1x512x512_S_d0_1_2_3 h_S_) main_v6 main_c_1
  let main_v8 : IVec S_ 1 := andi main_v3 main_v7
  let main_v9 : FVec F S32x1x512x512 .f32 := Host.absf main_arg2
  let main_cst_2 : FVec F S_ .f32 := constant S_ .f32 0x7F800000#32
  let main_v10 : FVec F S32x1x512x512 .f32 := broadcastInDim S32x1x512x512 ![] bcast_S_S32x1x512x512 main_cst_2
  let main_v11 : IVec S32x1x512x512 1 := cmpf .olt main_v9 main_v10
  let main_c_3 : IVec S_ 1 := constantI S_ 1 1#1
  let main_v12 : IVec S_ 1 := (fun x v => Host.reduce IntOp.andi x v reducesTo_S32x1x512x512_S_d0_1_2_3 h_S_) main_v11 main_c_3
  let main_v13 : IVec S_ 1 := andi main_v8 main_v12
  main_v13
-- ==== Kernel.lean ====
abbrev S32x1x512x512 : Shape := ⟨4, ![32, 1, 512, 512]⟩
abbrev S16384x512 : Shape := ⟨2, ![16384, 512]⟩
abbrev S1x1 : Shape := ⟨2, ![1, 1]⟩
abbrev S1024x512 : Shape := ⟨2, ![1024, 512]⟩
abbrev S1024 : Shape := ⟨1, ![1024]⟩
abbrev S1024x1 : Shape := ⟨2, ![1024, 1]⟩
abbrev S1 : Shape := ⟨1, ![1]⟩
abbrev S_ : Shape := ⟨0, ![]⟩

abbrev nBuf : Space → Nat
  | .hbm => 10
  | .vmem => 8
  | .smem => 0
  | _ => 0

abbrev bufTy : (tb : Table) → Fin (tcTables nBuf tb) → BufTy
  | .hbm, ⟨0, _⟩ => ⟨S32x1x512x512, .f32⟩
  | .hbm, ⟨1, _⟩ => ⟨S32x1x512x512, .f32⟩
  | .hbm, ⟨2, _⟩ => ⟨S32x1x512x512, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1x1, .f32⟩
  | .local _ .vmem, ⟨7, _⟩ => ⟨S1x1, .f32⟩
  | _, _ => ⟨S32x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v47 : BitVec 1 := Scalar.cmpi .eq arg0 c15_i32
  let v48 : BitVec 32 := Scalar.extui v47
  let c0_i32_22 : BitVec 32 := 0#32
  let v49 : BitVec 1 := Scalar.cmpi .ne v48 c0_i32_22
  v49

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S32x1x512x512_S16384x512 : S32x1x512x512.ShapeCasts S16384x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S1024 : S1024x512.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S16384x512.size a
  hwx0_2 : ∀ i : grid0.Coords, EltTy.bits .f32 = 32 ∨ (Rect.block (s := S16384x512) S1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32x1x512x512 : Shape := ⟨4, ![32, 1, 512, 512]⟩
abbrev S8388608 : Shape := ⟨1, ![8388608]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S32x1x512x512, .f32⟩
  | .hbm, ⟨1, _⟩ => ⟨S32x1x512x512, .f32⟩
  | .hbm, ⟨2, _⟩ => ⟨S32x1x512x512, .f32⟩
  | .hbm, ⟨3, _⟩ => ⟨S8388608, .f32⟩
  | .hbm, ⟨4, _⟩ => ⟨S8388608, .f32⟩
  | .hbm, ⟨5, _⟩ => ⟨S8388608, .f32⟩
  | .hbm, ⟨6, _⟩ => ⟨S_, .f32⟩
  | .hbm, ⟨7, _⟩ => ⟨S8388608, .f32⟩
  | .hbm, ⟨8, _⟩ => ⟨S8388608, .i1⟩
  | .hbm, ⟨9, _⟩ => ⟨S_, .f32⟩
  | .hbm, ⟨10, _⟩ => ⟨S8388608, .f32⟩
  | .hbm, ⟨11, _⟩ => ⟨S8388608, .f32⟩
  | .hbm, ⟨12, _⟩ => ⟨S_, .f32⟩
  | .hbm, ⟨13, _⟩ => ⟨S8388608, .f32⟩
  | .hbm, ⟨14, _⟩ => ⟨S8388608, .i1⟩
  | .hbm, ⟨15, _⟩ => ⟨S_, .f32⟩
  | .hbm, ⟨16, _⟩ => ⟨S8388608, .f32⟩
  | .hbm, ⟨17, _⟩ => ⟨S8388608, .i1⟩
  | .hbm, ⟨18, _⟩ => ⟨S8388608, .i1⟩
  | .hbm, ⟨19, _⟩ => ⟨S_, .f32⟩
  | .hbm, ⟨20, _⟩ => ⟨S_, .f32⟩
  | .hbm, ⟨21, _⟩ => ⟨S8388608, .f32⟩
  | .hbm, ⟨22, _⟩ => ⟨S8388608, .f32⟩
  | .hbm, ⟨23, _⟩ => ⟨S8388608, .f32⟩
  | .hbm, ⟨24, _⟩ => ⟨S8388608, .f32⟩
  | .hbm, ⟨25, _⟩ => ⟨S8388608, .f32⟩
  | .hbm, ⟨26, _⟩ => ⟨S8388608, .f32⟩
  | .hbm, ⟨27, _⟩ => ⟨S_, .f32⟩
  | .hbm, ⟨28, _⟩ => ⟨S8388608, .f32⟩
  | .hbm, ⟨29, _⟩ => ⟨S8388608, .f32⟩
  | .hbm, ⟨30, _⟩ => ⟨S8388608, .f32⟩
  | .hbm, ⟨31, _⟩ => ⟨S8388608, .f32⟩
  | .hbm, ⟨32, _⟩ => ⟨S_, .f32⟩
  | .hbm, ⟨33, _⟩ => ⟨S8388608, .f32⟩
  | .hbm, ⟨34, _⟩ => ⟨S8388608, .f32⟩
  | .hbm, ⟨35, _⟩ => ⟨S8388608, .f32⟩
  | .hbm, ⟨36, _⟩ => ⟨S_, .f32⟩
  | .hbm, ⟨37, _⟩ => ⟨S8388608, .f32⟩
  | .hbm, ⟨38, _⟩ => ⟨S8388608, .f32⟩
  | .hbm, ⟨39, _⟩ => ⟨S8388608, .f32⟩
  | .hbm, ⟨40, _⟩ => ⟨S8388608, .f32⟩
  | .hbm, ⟨41, _⟩ => ⟨S8388608, .f32⟩
  | .hbm, ⟨42, _⟩ => ⟨S8388608, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S32x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_cst_4 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_call1_v0 : Ref sig .tc := ⟨.hbm, 24, rfl⟩
abbrev main_v13 : Ref sig .tc := ⟨.hbm, 25, rfl⟩
abbrev main_v14 : Ref sig .tc := ⟨.hbm, 26, rfl⟩
abbrev main_cst_5 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_8 : Ref sig .tc := ⟨.hbm, 43, rfl⟩
abbrev main_v28 : Ref sig .tc := ⟨.hbm, 44, rfl⟩
abbrev main_cst_9 : Ref sig .tc := ⟨.hbm, 45, rfl⟩
abbrev main_v29 : Ref sig .tc := ⟨.hbm, 46, rfl⟩

abbrev nD : Nat := 1
abbrev τ : Topo := Topo.v7x

variable {F : FTy → Type} [FloatOps F]

class Facts₀ : Prop where
  shapeCasts_S32x1x512x512_S8388608 : S32x1x512x512.ShapeCasts S8388608
  bcast_S_S8388608 : S_.BroadcastsInDim S8388608 (![] : Fin 0 → Fin S8388608.rank)
  reducesTo_S8388608_S_d0 : S8388608.ReducesTo [0] S_
  h_S_ : 0 < S_.numel

variable [Facts₀]

class Facts : Prop extends Facts₀ where

variable [Facts]
-- ==== Proof.Term.lean ====
/-
  One element's weighted, clamped binary cross-entropy over the extended reals, and how a sum over the
  flattened array of 8388608 elements is the sum, over 16 row blocks, of the sums over each block of 1024 rows of
  512 elements.

  For a probability p, a target t and a hard-negative weight n the element's term is
      w(t, n) · −( t · max(log p, −100) + (1 − t) · max(log(1 + (−p)), −100) ),
  with the weight w(t, n) = 1 + n where n > 0, else 1 where t > 0 or n = 0, else 0. The mean is the sum of the
  terms over all elements divided by their count 2²³. On the extended reals addition is commutative and associative
  (with ⊥ + ⊤ = ⊥), so a sum may be taken in any grouping and any order: nothing here asks the terms to be finite.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Wbce

open Idealize.ShloMosaic Idealize.ShloMosaic.ValueIdx

/-! ## The element's term -/

/-- The literal 1. -/
abbrev one : EReal := Ideal.ofBits .f32 0x3F800000#32
/-- The clamp −100 of both logarithms. -/
abbrev logFloor : EReal := Ideal.ofBits .f32 0xC2C80000#32
/-- The number of elements, 2²³, the mean divides by. -/
abbrev count : EReal := Ideal.ofBits .f32 0x4B000000#32

/-- The literal 0 (it denotes the extended real 0: `Ideal.ofBits_zero_f32`). -/
abbrev zero : EReal := Ideal.ofBits .f32 0x00000000#32

/-- The weight of an element: 1 + n where n > 0; else 1 where t > 0 or n = 0; else 0. -/
def weight (t n : EReal) : EReal :=
  Scalar.select (Ideal.cmp .ogt n zero) (one + n)
    (Scalar.select (IntOp.ori (Ideal.cmp .ogt t zero) (Ideal.cmp .oeq n zero)) one zero)

/-- The element's term: its weight times the negated clamped cross-entropy. -/
def term (p t n : EReal) : EReal :=
  weight t n * -(t * max (Ideal.log p) logFloor + (one - t) * max (Ideal.log1p (-p)) logFloor)

/-- The mean over the flattened arrays: the sum of the elements' terms divided by their count. -/
def mean (p t n : (⟨1, ![8388608]⟩ : Shape).Idx → EReal) : EReal :=
  Ideal.div (∑ i, term (p i) (t i) (n i)) count

/-- Subtracting from the zero word is negating. -/
theorem zeroWord_sub (x : EReal) : Ideal.ofBits .f32 0x00000000#32 - x = -x := by
  rw [Ideal.ofBits_zero_f32, zero_sub]

/-! ## Flat positions -/

/-- The flat position of lane l of row r of row block s: ((1024 s + r) · 512 + l). -/
def flat (s : Fin 16) (r : Fin 1024) (l : Fin 512) : Fin 8388608 :=
  ⟨(s.val * 1024 + r.val) * 512 + l.val, by have := s.isLt; have := r.isLt; have := l.isLt; omega⟩

theorem flat_val (s : Fin 16) (r : Fin 1024) (l : Fin 512) : (flat s r l).val = (s.val * 1024 + r.val) * 512 + l.val := rfl

/-- Every flat position is lane l of row r of block s for exactly one (s, r, l). -/
def flatEquiv : Fin 16 × Fin 1024 × Fin 512 ≃ Fin 8388608 where
  toFun x := flat x.1 x.2.1 x.2.2
  invFun k := (⟨k.val / 524288, by have := k.isLt; omega⟩, ⟨k.val / 512 % 1024, by omega⟩, ⟨k.val % 512, by omega⟩)
  left_inv := by
    rintro ⟨s, r, l⟩
    have hs := s.isLt; have hr := r.isLt; have hl := l.isLt
    refine Prod.ext (Fin.ext ?_) (Prod.ext (Fin.ext ?_) (Fin.ext ?_))
    · show ((s.val * 1024 + r.val) * 512 + l.val) / 524288 = s.val; omega
    · show ((s.val * 1024 + r.val) * 512 + l.val) / 512 % 1024 = r.val; omega
    · show ((s.val * 1024 + r.val) * 512 + l.val) % 512 = l.val; omega
  right_inv := by
    intro k
    have hk := k.isLt
    apply Fin.ext
    show (k.val / 524288 * 1024 + k.val / 512 % 1024) * 512 + k.val % 512 = k.val
    omega

/-- A sum over the flat positions is the triple sum over blocks, rows and lanes. -/
theorem sum_flat {M : Type*} [AddCommMonoid M] (g : Fin 8388608 → M) :
    ∑ k, g k = ∑ s : Fin 16, ∑ r : Fin 1024, ∑ l : Fin 512, g (flat s r l) := by
  rw [← Equiv.sum_comp flatEquiv g, Fintype.sum_prod_type]
  refine Finset.sum_congr rfl fun s _ => ?_
  rw [Fintype.sum_prod_type]
  rfl

/-- A sum over the indices of a rank-1 array is the sum over its coordinate. -/
theorem sum_idx1 {M : Type*} [AddCommMonoid M] {n : Nat} (f : (⟨1, ![n]⟩ : Shape).Idx → M) :
    ∑ i, f i = ∑ k : Fin n, f (ix1 k) := by
  let e : Fin n ≃ (⟨1, ![n]⟩ : Shape).Idx :=
    { toFun := ix1, invFun := fun j => j 0, left_inv := fun _ => rfl, right_inv := fun j => (eq_ix1 j).symm }
  exact (Equiv.sum_comp e f).symm

/-- So the sum of a function of the flat position over the flattened array is the sum, over the 16 row blocks, of the
    sums over each block's 1024 × 512 elements. -/
theorem sum_flat_blocks {M : Type*} [AddCommMonoid M] (f : (⟨1, ![8388608]⟩ : Shape).Idx → M) :
    ∑ i, f i = ∑ s : Fin 16, ∑ j : (⟨2, ![1024, 512]⟩ : Shape).Idx, f (ix1 (flat s (j 0) (j 1))) := by
  rw [sum_idx1, sum_flat]
  refine Finset.sum_congr rfl fun s _ => ?_
  rw [sum_idx2]

/-! ## Two reshapes of one array -/

/-- Two reshapes of one array hold the same element wherever their indices have the same row-major position. -/
theorem shapeCast_eq_of_rowMajor {s t t' : Shape} {α : Type} (x : s.Idx → α) (h : s.ShapeCasts t) (h' : s.ShapeCasts t')
    (j : t.Idx) (j' : t'.Idx) (e : (t.rowMajor j).val = (t'.rowMajor j').val) :
    shapeCast t x h j = shapeCast t' x h' j' :=
  (shapeCast_apply x h' j' (Shape.reshapeEquiv h j) ((Shape.rowMajor_reshapeEquiv h j).trans e)).symm

/-- Row R = 1024 s + r, lane l of the array reshaped to 16384 rows of 512 is its element at the flat position. -/
theorem rows_eq_flat {s0 : Shape} {α : Type} (x : s0.Idx → α) (h : s0.ShapeCasts ⟨2, ![16384, 512]⟩)
    (h' : s0.ShapeCasts ⟨1, ![8388608]⟩) (s : Fin 16) (r : Fin 1024) (l : Fin 512) (R : Fin 16384)
    (hR : R.val = s.val * 1024 + r.val) :
    shapeCast ⟨2, ![16384, 512]⟩ x h (ix2 R l) = shapeCast ⟨1, ![8388608]⟩ x h' (ix1 (flat s r l)) := by
  refine shapeCast_eq_of_rowMajor x h h' _ _ ?_
  rw [Shape.rowMajor_val_two, Shape.rowMajor_val_one]
  show R.val * 512 + l.val = (s.val * 1024 + r.val) * 512 + l.val
  rw [hR]

end Cert.Wbce

end
-- ==== Proof.RefValue.lean ====
/-
  The reference's result at the extended reals is the mean of the elements' terms over the three flattened arguments.

  The reference flattens each argument, computes every element's weight and clamped cross-entropy with the host's
  operations, sums the products from zero and divides by the count. The host's logarithms are the kernel's at the
  extended reals, the host's negation is the extended reals' own, and a sum into a scalar from the zero word is the
  sum over every index: so the result is `Cert.Wbce.mean` of the flattened arguments, read at its one index.
-/
import proofs.«173039_j26989574488433_1_alg».proof.Defs
import proofs.«173039_j26989574488433_1_alg».proof.Proof.Gen.ReferenceIdeal.Run
import proofs.«173039_j26989574488433_1_alg».proof.Proof.Gen.ReferenceIdeal.Read
import proofs.«173039_j26989574488433_1_alg».proof.Proof.Term

noncomputable section

open scoped BigOperators

namespace Cert.ReferenceIdeal.RefValue

open Cert.ReferenceIdeal Cert.ReferenceIdeal.Gen Cert.ReferenceIdeal.Read Idealize.ShloMosaic Cert.Wbce

/-- An argument flattened to its 8388608 elements in row-major order. -/
abbrev flatten (x : (⟨S32x1x512x512, .f32⟩ : BufTy).Contents (Elt Ideal)) : S8388608.Idx → EReal :=
  shapeCast S8388608 x shapeCasts_S32x1x512x512_S8388608

/-- The product the reference sums, at an element, is the element's term of the flattened arguments. -/
theorem product_apply (x0 x1 x2 : (⟨S32x1x512x512, .f32⟩ : BufTy).Contents (Elt Ideal)) (j : S8388608.Idx) :
    val_main_v27 (F := Ideal) x0 x1 x2 j = term (flatten x0 j) (flatten x1 j) (flatten x2 j) := rfl

/-- The reference's result is the mean of the terms over the flattened arguments. -/
theorem result_eq (x0 x1 x2 : (⟨S32x1x512x512, .f32⟩ : BufTy).Contents (Elt Ideal)) :
    val_main_v29 (F := Ideal) x0 x1 x2 = fun _ => mean (flatten x0) (flatten x1) (flatten x2) := by
  funext i
  rw [val_main_v29_apply, val_main_v28_apply]
  show Ideal.div (Ideal.ofBits .f32 0x00000000#32 + ∑ j : S8388608.Idx, val_main_v27 (F := Ideal) x0 x1 x2 j)
      (Ideal.ofBits .f32 0x4B000000#32) = _
  rw [Ideal.ofBits_zero_f32, zero_add]
  unfold mean
  exact congrArg (fun z => Ideal.div z count) (Finset.sum_congr rfl fun j _ => product_apply x0 x1 x2 j)

end Cert.ReferenceIdeal.RefValue

end
-- ==== Proof.Pieces.lean ====
/-
  What one run of the body leaves behind, case by case, as values.

  The body adds the sum of its block's terms to the one-element accumulator it carries from point to point: at the
  first point it first stores the zero, at every later point it finds what the point before left, and at the last
  point it also copies the accumulator, after the addition, into the output's block. Each case's stores were found
  by the run as pieces covering the one-element buffer; read back, the piece is the addition's result
  (the sum of the block, computed from the three loaded blocks, added to the accumulator loaded before it).
  All of this holds for any float values.
-/
import proofs.«173039_j26989574488433_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The origin of a rank-2 buffer. -/
theorem hz : (![0, 0] : Fin 2 → Nat) = fun _ => 0 := funext fun a => by fin_cases a <;> rfl

/-- A later point that is not the last: the accumulator ends at what it held plus the block's sum. -/
theorem scratch_B (c : Dev nD) (i : grid0.Coords) (a1 : Memref sig .tc .vmem S1024x512 .f32) (h1 : a1.IsWhole)
    (a2 : Memref sig .tc .vmem S1024x512 .f32) (h2 : a2.IsWhole) (a3 : Memref sig .tc .vmem S1024x512 .f32) (h3 : a3.IsWhole)
    (a4 : Memref sig .tc .vmem S1x1 .f32) (h4 : a4.IsWhole) (a5 : Memref sig .tc .vmem S1x1 .f32) (h5 : a5.IsWhole)
    (hc0 : ¬cond0_0 i) (hc1 : ¬cond0_1 i) (x0 x1 x2 : Vec F S1024x512 .f32) (xs0 : Vec F S1x1 .f32) :
    sout0_B_0 c i a1 h1 a2 h2 a3 h3 a4 h4 a5 h5 hc0 hc1 x0 x1 x2 xs0 = k0_pay1 (k0_pay3 x0 x1 x2) xs0 := by
  unfold sout0_B_0
  rw [View.read_writes_eq_canon _ _ _ (scover0_B_0 c i a1 h1 a2 h2 a3 h3 a4 h4 a5 h5 hc0 hc1 x0 x1 x2 xs0)]
  unfold kernelRun0_B
  dsimp only
  sl_unfold_words
  rw [View.canon_unit_zero hz]
  simp only [View.readAt_eq_ld, h1.read_unread, h2.read_unread, h3.read_unread, h5.read_unread,
    View.ld_unit_zero (S := S1024x512) hz, View.ld_unit_zero (S := S1x1) hz]

/-- The last point: the accumulator ends at what it held plus the block's sum, -/
theorem scratch_C (c : Dev nD) (i : grid0.Coords) (a1 : Memref sig .tc .vmem S1024x512 .f32) (h1 : a1.IsWhole)
    (a2 : Memref sig .tc .vmem S1024x512 .f32) (h2 : a2.IsWhole) (a3 : Memref sig .tc .vmem S1024x512 .f32) (h3 : a3.IsWhole)
    (a4 : Memref sig .tc .vmem S1x1 .f32) (h4 : a4.IsWhole) (a5 : Memref sig .tc .vmem S1x1 .f32) (h5 : a5.IsWhole)
    (hc0 : ¬cond0_0 i) (hc1 : cond0_1 i) (x0 x1 x2 : Vec F S1024x512 .f32) (xs0 : Vec F S1x1 .f32) :
    sout0_C_0 c i a1 h1 a2 h2 a3 h3 a4 h4 a5 h5 hc0 hc1 x0 x1 x2 xs0 = k0_pay1 (k0_pay3 x0 x1 x2) xs0 := by
  unfold sout0_C_0
  rw [View.read_writes_eq_canon _ _ _ (scover0_C_0 c i a1 h1 a2 h2 a3 h3 a4 h4 a5 h5 hc0 hc1 x0 x1 x2 xs0)]
  unfold kernelRun0_C
  dsimp only
  sl_unfold_words
  rw [View.canon_unit_zero hz]
  simp only [View.readAt_eq_ld, h1.read_unread, h2.read_unread, h3.read_unread, h5.read_unread,
    View.ld_unit_zero (S := S1024x512) hz, View.ld_unit_zero (S := S1x1) hz]

/-- and the output's block is a copy of it. -/
theorem out_C (c : Dev nD) (i : grid0.Coords) (a1 : Memref sig .tc .vmem S1024x512 .f32) (h1 : a1.IsWhole)
    (a2 : Memref sig .tc .vmem S1024x512 .f32) (h2 : a2.IsWhole) (a3 : Memref sig .tc .vmem S1024x512 .f32) (h3 : a3.IsWhole)
    (a4 : Memref sig .tc .vmem S1x1 .f32) (h4 : a4.IsWhole) (a5 : Memref sig .tc .vmem S1x1 .f32) (h5 : a5.IsWhole)
    (hc0 : ¬cond0_0 i) (hc1 : cond0_1 i) (x0 x1 x2 : Vec F S1024x512 .f32) (xs0 : Vec F S1x1 .f32) :
    out0_C_3 c i a1 h1 a2 h2 a3 h3 a4 h4 a5 h5 hc0 hc1 x0 x1 x2 xs0 = k0_pay1 (k0_pay3 x0 x1 x2) xs0 := by
  unfold out0_C_3
  rw [View.read_writes_eq_canon _ _ _ (cover0_C_3 c i a1 h1 a2 h2 a3 h3 a4 h4 a5 h5 hc0 hc1 x0 x1 x2 xs0)]
  unfold kernelRun0_C
  dsimp only
  sl_unfold_words
  rw [View.canon_unit_zero hz, View.readCov_unit_zero (S := S1x1) _ hz]
  simp only [View.readAt_eq_ld, h1.read_unread, h2.read_unread, h3.read_unread, h5.read_unread,
    View.ld_unit_zero (S := S1024x512) hz, View.ld_unit_zero (S := S1x1) hz]

/-- The first point: the accumulator ends at the zero it has just stored plus the block's sum. -/
theorem scratch_A (c : Dev nD) (i : grid0.Coords) (a1 : Memref sig .tc .vmem S1024x512 .f32) (h1 : a1.IsWhole)
    (a2 : Memref sig .tc .vmem S1024x512 .f32) (h2 : a2.IsWhole) (a3 : Memref sig .tc .vmem S1024x512 .f32) (h3 : a3.IsWhole)
    (a4 : Memref sig .tc .vmem S1x1 .f32) (h4 : a4.IsWhole) (a5 : Memref sig .tc .vmem S1x1 .f32) (h5 : a5.IsWhole)
    (hc0 : cond0_0 i) (hc1 : ¬cond0_1 i) (x0 x1 x2 : Vec F S1024x512 .f32) :
    sout0_A_0 c i a1 h1 a2 h2 a3 h3 a4 h4 a5 h5 hc0 hc1 x0 x1 x2 = k0_pay1 (k0_pay3 x0 x1 x2) k0_pay2 := by
  unfold sout0_A_0
  rw [View.read_writes_eq_canon _ _ _ (scover0_A_0 c i a1 h1 a2 h2 a3 h3 a4 h4 a5 h5 hc0 hc1 x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread,
    View.ld_unit_zero (S := S1024x512) hz]

end Cert.KernelIdeal.Pieces

end
-- ==== Proof.Payloads.lean ====
/-
  The body's arithmetic at the extended reals.

  From its three loaded blocks (probabilities, targets, hard-negative weights) the body computes every element's
  term, sums each row's 512 terms, sums the 1024 row sums, and adds the result to the accumulator. Both sums start
  from the zero word and addition of extended reals is commutative and associative, so what is added to the
  accumulator is the sum of the block's terms over all its 1024 × 512 elements.
-/
import proofs.«173039_j26989574488433_1_alg».proof.Proof.Gen.KernelIdeal.Skeleton
import proofs.«173039_j26989574488433_1_alg».proof.Proof.Term

noncomputable section

open scoped BigOperators

open Idealize.ShloMosaic Idealize.ShloMosaic.ValueIdx

namespace Cert.KernelIdeal.Payloads

open Cert.KernelIdeal Cert.KernelIdeal.Gen Cert.Wbce

/-- The product the body sums, at an element of the block, is the element's term of the three loaded blocks. -/
theorem product_apply (x0 x1 x2 : Vec Ideal S1024x512 .f32) (j : S1024x512.Idx) :
    k0_pay3 (F := Ideal) x0 x1 x2 j = term (x0 j) (x1 j) (x2 j) := by
  unfold k0_pay3
  simp only [shapeCast_self]
  show weight (x1 j) (x2 j) * (zero - (x1 j * max (Ideal.log (x0 j)) logFloor
      + (one - x1 j) * max (Ideal.log1p (zero - x0 j)) logFloor)) = _
  rw [zeroWord_sub, zeroWord_sub]
  rfl

/-- The zero the first point stores. -/
theorem reset_apply (y : S1x1.Idx) : k0_pay2 (F := Ideal) y = (0 : EReal) := by
  unfold k0_pay2
  simp only [shapeCast_self]
  exact Ideal.ofBits_zero_f32

/-- The lane sums' one index per row. -/
theorem rowSum_apply (v : FVec Ideal S1024x512 .f32) (a : Fin 1024) :
    multiReduction .add [1] S1024 v 0x00000000#32 reduces_S1024x512_S1024 (.inl rfl) rfl (ix1 a)
      = ∑ l : Fin 512, v (ix2 a l) := by
  refine (Ideal.multiReduction_add_single v 0x00000000#32 reduces_S1024x512_S1024 (.inl rfl) rfl (ix1 a)).trans ?_
  show ∑ l : Fin 512, v (reduces_S1024x512_S1024.lift (ix1 a) l) = _
  refine Finset.sum_congr rfl fun l _ => congrArg v ?_
  funext b
  match b with
  | ⟨0, _⟩ => rfl
  | ⟨1, _⟩ => rfl

/-- What the body stores into the accumulator: what it loaded from it plus the sum of the block's products. -/
theorem update_apply (v : FVec Ideal S1024x512 .f32) (acc : Vec Ideal S1x1 .f32) (y : S1x1.Idx) :
    k0_pay1 (F := Ideal) v acc y = acc y + ∑ j : S1024x512.Idx, v j := by
  unfold k0_pay1
  simp only [shapeCast_self]
  show acc y + shapeCast S1x1 (multiReduction .add [0] S1 (shapeCast S1024x1
      (multiReduction .add [1] S1024 v 0x00000000#32 reduces_S1024x512_S1024 (.inl rfl) rfl) shapeCasts_S1024_S1024x1)
      0x00000000#32 reduces_S1024x1_S1 (.inl rfl) rfl) shapeCasts_S1_S1x1 y = _
  congr 1
  have h0 : (y 0).val < 1 := (y 0).isLt
  have h1 : (y 1).val < 1 := (y 1).isLt
  rw [shapeCast_apply _ shapeCasts_S1_S1x1 y (ix1 (⟨0, Nat.one_pos⟩ : Fin 1))
    (by rw [Shape.rowMajor_val_one, Shape.rowMajor_val_two]; show 0 = (y 0).val * 1 + (y 1).val; omega)]
  refine (Ideal.multiReduction_add_total _ 0x00000000#32 reduces_S1024x1_S1 (fun b => by fin_cases b; rfl) (.inl rfl) rfl _).trans ?_
  rw [sum_idx2, sum_idx2]
  refine Finset.sum_congr rfl fun a _ => ?_
  rw [Fin.sum_univ_one]
  rw [shapeCast_apply _ shapeCasts_S1024_S1024x1 (ix2 a (0 : Fin 1)) (ix1 a)
    (by rw [Shape.rowMajor_val_one, Shape.rowMajor_val_two]; show a.val = a.val * 1 + 0; omega)]
  exact rowSum_apply v a

end Cert.KernelIdeal.Payloads

end
-- ==== Proof.KValue.lean ====
/-
  The kernel's result at the extended reals, read off its frame run.

  The grid has 16 points; point t stages rows 1024 t … 1024 t + 1023 of the three arguments, each reshaped to 16384
  rows of 512 lanes. The accumulator the body carries holds, after point n, the sum of the sums of blocks 0 … n of
  the elements' terms (by induction on the point: the first point starts from the zero it stores, every later point
  adds its block's sum to what the point before left). The last point copies the accumulator into the output's one
  block, which is the whole 1 × 1 result array and is written back only there. After the region the host reshapes
  that array to a scalar and divides it by the count.
-/
import proofs.«173039_j26989574488433_1_alg».proof.Proof.Pieces
import proofs.«173039_j26989574488433_1_alg».proof.Proof.Payloads
import Idealize.ShloMosaic.Lib.StableHlo.Run

noncomputable section

open scoped BigOperators

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Wbce Cert.KernelIdeal.Pieces Cert.KernelIdeal.Payloads

variable (m : (ℓ : Loc nD τ sig) → Buf (Elt Ideal) ℓ) (ρ : Dev nD → PrngReg)

/-! ## The running sum -/

/-- The sum of the terms of the elements of row block t. -/
def blockSum (c : Dev nD) (t : Fin cfg0.N) : EReal :=
  ∑ j : S1024x512.Idx, term ((iblk m c 0 t : Vec Ideal S1024x512 .f32) j) ((iblk m c 1 t : Vec Ideal S1024x512 .f32) j)
    ((iblk m c 2 t : Vec Ideal S1024x512 .f32) j)

/-- The sum of the sums of blocks 0 … n. -/
def running (c : Dev nD) : (n : ℕ) → n < cfg0.N → EReal
  | 0, h => blockSum m c ⟨0, h⟩
  | n + 1, h => running c n (Nat.lt_of_succ_lt h) + blockSum m c ⟨n + 1, h⟩

/-- The body's update at point t of an accumulator holding a: it then holds a plus the block's sum. -/
theorem update_eq (c : Dev nD) (t : Fin cfg0.N) (acc : Vec Ideal S1x1 .f32) (a : EReal) (h : acc = fun _ => a) :
    k0_pay1 (F := Ideal) (k0_pay3 (iblk m c 0 t) (iblk m c 1 t) (iblk m c 2 t)) acc = fun _ => a + blockSum m c t := by
  subst h
  funext y
  rw [update_apply]
  unfold blockSum
  exact congrArg (a + ·) (Finset.sum_congr rfl fun j _ => product_apply _ _ _ j)

/-- After point n the carried accumulator holds the running sum. -/
theorem scratch_eq (c : Dev nD) : ∀ (n : ℕ) (h : n < cfg0.N), (outsAt0 m c n h).2 = fun _ => running m c n h
  | 0, h => by
    rw [outsAt0_A m c ⟨0, h⟩ rfl (by dsimp only; decide)]
    dsimp only
    refine (scratch_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) _ _ (iblk m c 0 ⟨0, h⟩) (iblk m c 1 ⟨0, h⟩) (iblk m c 2 ⟨0, h⟩)).trans ?_
    refine (update_eq m c ⟨0, h⟩ (k0_pay2 (F := Ideal)) (0 : EReal) (funext fun y => reset_apply y)).trans ?_
    funext _
    exact zero_add _
  | n + 1, h => by
    have hN : cfg0.N = 16 := N_0
    have h0 : ¬(⟨n + 1, h⟩ : Fin cfg0.N).val % 16 = 0 := by dsimp only; omega
    have ih : (outsAt0 m c ((⟨n + 1, h⟩ : Fin cfg0.N).val - 1) (Nat.lt_of_le_of_lt (Nat.sub_le _ _) h)).2
        = fun _ => running m c n (Nat.lt_of_succ_lt h) := scratch_eq c n (Nat.lt_of_succ_lt h)
    by_cases h1 : (⟨n + 1, h⟩ : Fin cfg0.N).val % 16 = 15
    · rw [outsAt0_C m c ⟨n + 1, h⟩ h0 h1]
      dsimp only
      refine (scratch_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk m c 0 ⟨n + 1, h⟩) (iblk m c 1 ⟨n + 1, h⟩) (iblk m c 2 ⟨n + 1, h⟩) _).trans ?_
      exact update_eq m c ⟨n + 1, h⟩ _ _ ih
    · rw [outsAt0_B m c ⟨n + 1, h⟩ h0 h1]
      dsimp only
      refine (scratch_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk m c 0 ⟨n + 1, h⟩) (iblk m c 1 ⟨n + 1, h⟩) (iblk m c 2 ⟨n + 1, h⟩) _).trans ?_
      exact update_eq m c ⟨n + 1, h⟩ _ _ ih

/-- The sum of all 16 blocks' sums. -/
abbrev total (c : Dev nD) : EReal := running m c 15 (by rw [show cfg0.N = 16 from N_0]; decide)

/-- After the last point the output's block holds the sum of all blocks' sums. -/
theorem out_eq (c : Dev nD) : (outsAt0 m c t0_15.val t0_15.isLt).1 = fun _ => total m c := by
  have ih : (outsAt0 m c (t0_15.val - 1) (Nat.lt_of_le_of_lt (Nat.sub_le _ _) t0_15.isLt)).2
      = fun _ => running m c 14 (by rw [show cfg0.N = 16 from N_0]; decide) := scratch_eq m c 14 _
  rw [outsAt0_C m c t0_15 (by decide) rfl]
  dsimp only
  refine (out_C (F := Ideal) c (grid0.coords t0_15) (ms0_0 t0_15) (hs0_0 t0_15) (ms0_1 t0_15) (hs0_1 t0_15) (ms0_2 t0_15) (hs0_2 t0_15) (ms0_3 t0_15) (hs0_3 t0_15) scM0_0 (Memref.isWhole_whole _) _ _ (iblk m c 0 t0_15) (iblk m c 1 t0_15) (iblk m c 2 t0_15) _).trans ?_
  exact update_eq m c t0_15 _ _ ih

end Cert.KernelIdeal.KValue

end
-- ==== Proof.KRun.lean ====
/-
  The kernel's run, read: the result is the sum of all blocks' sums divided by the count.

  The output window has one block, the whole 1 × 1 result array, and only the last point writes it back; so after
  the region the array holds what the last point left there, the sum of the 16 blocks' sums. The host then reshapes
  it to a scalar and divides by the count; the arguments are written by nothing.
-/
import proofs.«173039_j26989574488433_1_alg».proof.Proof.KValue

noncomputable section

open scoped BigOperators

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Wbce

variable (m : (ℓ : Loc nD τ sig) → Buf (Elt Ideal) ℓ) (ρ : Dev nD → PrngReg)

/-- The result array's contents after the region: its one element is the sum of all blocks' sums. -/
abbrev sumArray (c : Dev nD) : Buf (Elt Ideal) ((c : Thread nD τ).loc main_v3) := fun _ => total m c

/-- The one write-back, at the last point, writes the sum of all blocks' sums. -/
theorem flushed_eq (c : Dev nD) (t : Fin cfg0.N) (hf : (cfg0.win 3).flush t = true) :
    (dats m 0 c).flushed 3 t = ((cfg0.win 3).blk t).view.read (Elt Ideal) (sumArray m c) := by
  have hN : cfg0.N = 16 := N_0
  have h15 : t.val = 15 := by have := (flush0_3 t).mp hf; have := t.isLt; omega
  obtain rfl : t = t0_15 := Fin.ext h15
  show (cfg0.win 3).cut (grid0.coords t0_15) ((dats m 0 c).after 3 t0_15) = _
  rw [after0_3, out_eq]
  rfl

/-- The last point's block is the whole result array, so the array ends holding the sum of all blocks' sums. -/
theorem final_eq (c : Dev nD) : (dats m 0 c).arrAt 3 cfg0.N = sumArray m c :=
  (dats m 0 c).arrAt_eq_of_cover 3 (sumArray m c) (flushed_eq m c) fun i =>
    ⟨t0_15, (flush0_3 t0_15).mpr rfl, by
      show i ∈ ((View.whole main_v3).slice (win0_3.rect t0_15)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index t0_15 0 * win0_3.size 0 ≤ (i 0 : Nat)
          ∧ (i 0 : Nat) < win0_3.index t0_15 0 * win0_3.size 0 + win0_3.xsize (grid0.coords t0_15) 0
        rw [show win0_3.index t0_15 0 * win0_3.size 0 = 0 from by decide +kernel,
          show win0_3.xsize (grid0.coords t0_15) 0 = 1 from by decide +kernel]
        omega
      | ⟨1, _⟩ =>
        show win0_3.index t0_15 1 * win0_3.size 1 ≤ (i 1 : Nat)
          ∧ (i 1 : Nat) < win0_3.index t0_15 1 * win0_3.size 1 + win0_3.xsize (grid0.coords t0_15) 1
        rw [show win0_3.index t0_15 1 * win0_3.size 1 = 0 from by decide +kernel,
          show win0_3.xsize (grid0.coords t0_15) 1 = 1 from by decide +kernel]
        omega⟩

/-- The host operations after the region: the result array reshaped to a scalar, divided by the count. -/
theorem tail_eq (c : Dev nD) :
    Pipeline.afterTail₀ cfgs (dats m) 0 (V0 m) [hostOps1] c main_v5 = fun _ => Ideal.div (total m c) count := by
  unfold Pipeline.afterTail₀
  show StableHlo.after hostOps1 _ (Proc.devRef .tc main_v5) = _
  after_results
  have hA : Pipeline.withArrays (cfgs 0).spec c (V0 m c) (fun w => (dats m 0 c).arrAt w (cfgs 0).N)
      (Proc.devRef .tc main_v3) = sumArray m c :=
    (Pipeline.withArrays_arr spec0 launch0.win.arr_inj c _ _ 3).trans (final_eq m c)
  rw [hA]
  funext x
  rfl

/-- THE RUN, READ. Every weakly fair execution of the program terminates with the result at the sum of all blocks'
    sums divided by the count, the arguments unchanged. -/
theorem run : θ_run defs (onTc (τ := τ) (main (F := Ideal))) ⟨m, fun _ => 0, ρ⟩ fun r => ∀ c : Dev nD,
      r.2.mem ((c.tc : Thread nD τ).loc main_v5) = (fun _ => Ideal.div (total m c) count)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.KBridge.lean ====
/-
  The sum of all blocks' sums is the sum over the flattened arguments.

  Before the region the host reshapes each argument to 16384 rows of 512 lanes; point t's block of a window is rows
  1024 t … 1024 t + 1023 of that array, so its element (r, l) is the argument's element at the flat position
  (1024 t + r) · 512 + l. The sum of the 16 blocks' sums is therefore the sum of the elements' terms over all flat
  positions, taken block by block: the same sum, since addition of extended reals is commutative and associative.
-/
import proofs.«173039_j26989574488433_1_alg».proof.Proof.KRun

noncomputable section

open scoped BigOperators

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Wbce

variable (m : (ℓ : Loc nD τ sig) → Buf (Elt Ideal) ℓ)

/-! ## The arrays the region finds -/

/-- The region finds each window's array at its argument reshaped to 16384 rows of 512 lanes. -/
theorem rows0 (c : Dev nD) : (V m c main_v0 : S16384x512.Idx → EReal)
    = shapeCast S16384x512 (m ((c : Thread nD τ).loc main_arg0)) shapeCasts_S32x1x512x512_S16384x512 := by
  show StableHlo.after hostOps0 (fun b => m (c, b)) (Proc.devRef .tc main_v0) = _
  after_results
  rfl
theorem rows1 (c : Dev nD) : (V m c main_v1 : S16384x512.Idx → EReal)
    = shapeCast S16384x512 (m ((c : Thread nD τ).loc main_arg1)) shapeCasts_S32x1x512x512_S16384x512 := by
  show StableHlo.after hostOps0 (fun b => m (c, b)) (Proc.devRef .tc main_v1) = _
  after_results
  rfl
theorem rows2 (c : Dev nD) : (V m c main_v2 : S16384x512.Idx → EReal)
    = shapeCast S16384x512 (m ((c : Thread nD τ).loc main_arg2)) shapeCasts_S32x1x512x512_S16384x512 := by
  show StableHlo.after hostOps0 (fun b => m (c, b)) (Proc.devRef .tc main_v2) = _
  after_results
  rfl

/-- Every input window's block index at point t is (t, 0). -/
theorem win_index : ∀ t : Fin cfg0.N, (win0_0.index t 0 = t.val ∧ win0_0.index t 1 = 0)
    ∧ (win0_1.index t 0 = t.val ∧ win0_1.index t 1 = 0) ∧ (win0_2.index t 0 = t.val ∧ win0_2.index t 1 = 0) :=
  (by decide +kernel : ∀ t : Fin grid0.N, (win0_0.index t 0 = t.val ∧ win0_0.index t 1 = 0)
    ∧ (win0_1.index t 0 = t.val ∧ win0_1.index t 1 = 0) ∧ (win0_2.index t 0 = t.val ∧ win0_2.index t 1 = 0))

/-- An argument flattened to its 8388608 elements in row-major order. -/
abbrev flatten (hf : S32x1x512x512.ShapeCasts ⟨1, ![8388608]⟩) (x : S32x1x512x512.Idx → EReal) :
    (⟨1, ![8388608]⟩ : Shape).Idx → EReal := shapeCast ⟨1, ![8388608]⟩ x hf

/-- Element j of point t's block of the probabilities is the argument's element at the flat position. -/
theorem block0_apply (hf : S32x1x512x512.ShapeCasts ⟨1, ![8388608]⟩) (c : Dev nD) (t : Fin cfg0.N) (s : Fin 16)
    (hs : s.val = t.val) (j : S1024x512.Idx) :
    (iblk m c 0 t : Vec Ideal S1024x512 .f32) j
      = flatten hf (m ((c : Thread nD τ).loc main_arg0)) (ix1 (flat s (j 0) (j 1))) := by
  have hj0 : (j 0).val < 1024 := (j 0).isLt
  have hs16 := s.isLt
  refine Eq.trans ?_ (rows_eq_flat (m ((c : Thread nD τ).loc main_arg0)) shapeCasts_S32x1x512x512_S16384x512 hf s (j 0) (j 1)
    ⟨s.val * 1024 + (j 0).val, by omega⟩ rfl)
  unfold iblk
  rw [View.read_apply]
  refine (congrFun (rows0 m c) _).trans (congrArg _ ?_)
  funext a
  apply Fin.ext
  match a with
  | ⟨0, _⟩ => show win0_0.index t 0 * 1024 + 1 * (j 0).val = s.val * 1024 + (j 0).val; rw [(win_index t).1.1, hs]; omega
  | ⟨1, _⟩ => show win0_0.index t 1 * 512 + 1 * (j 1).val = (j 1).val; rw [(win_index t).1.2]; omega

/-- The same for the targets, -/
theorem block1_apply (hf : S32x1x512x512.ShapeCasts ⟨1, ![8388608]⟩) (c : Dev nD) (t : Fin cfg0.N) (s : Fin 16)
    (hs : s.val = t.val) (j : S1024x512.Idx) :
    (iblk m c 1 t : Vec Ideal S1024x512 .f32) j
      = flatten hf (m ((c : Thread nD τ).loc main_arg1)) (ix1 (flat s (j 0) (j 1))) := by
  have hj0 : (j 0).val < 1024 := (j 0).isLt
  have hs16 := s.isLt
  refine Eq.trans ?_ (rows_eq_flat (m ((c : Thread nD τ).loc main_arg1)) shapeCasts_S32x1x512x512_S16384x512 hf s (j 0) (j 1)
    ⟨s.val * 1024 + (j 0).val, by omega⟩ rfl)
  unfold iblk
  rw [View.read_apply]
  refine (congrFun (rows1 m c) _).trans (congrArg _ ?_)
  funext a
  apply Fin.ext
  match a with
  | ⟨0, _⟩ => show win0_1.index t 0 * 1024 + 1 * (j 0).val = s.val * 1024 + (j 0).val; rw [(win_index t).2.1.1, hs]; omega
  | ⟨1, _⟩ => show win0_1.index t 1 * 512 + 1 * (j 1).val = (j 1).val; rw [(win_index t).2.1.2]; omega

/-- and for the hard-negative weights. -/
theorem block2_apply (hf : S32x1x512x512.ShapeCasts ⟨1, ![8388608]⟩) (c : Dev nD) (t : Fin cfg0.N) (s : Fin 16)
    (hs : s.val = t.val) (j : S1024x512.Idx) :
    (iblk m c 2 t : Vec Ideal S1024x512 .f32) j
      = flatten hf (m ((c : Thread nD τ).loc main_arg2)) (ix1 (flat s (j 0) (j 1))) := by
  have hj0 : (j 0).val < 1024 := (j 0).isLt
  have hs16 := s.isLt
  refine Eq.trans ?_ (rows_eq_flat (m ((c : Thread nD τ).loc main_arg2)) shapeCasts_S32x1x512x512_S16384x512 hf s (j 0) (j 1)
    ⟨s.val * 1024 + (j 0).val, by omega⟩ rfl)
  unfold iblk
  rw [View.read_apply]
  refine (congrFun (rows2 m c) _).trans (congrArg _ ?_)
  funext a
  apply Fin.ext
  match a with
  | ⟨0, _⟩ => show win0_2.index t 0 * 1024 + 1 * (j 0).val = s.val * 1024 + (j 0).val; rw [(win_index t).2.2.1, hs]; omega
  | ⟨1, _⟩ => show win0_2.index t 1 * 512 + 1 * (j 1).val = (j 1).val; rw [(win_index t).2.2.2]; omega

/-! ## The total -/

/-- Block s's sum for s below the number of points, zero beyond. -/
def blockSumN (c : Dev nD) (s : ℕ) : EReal := if h : s < cfg0.N then blockSum m c ⟨s, h⟩ else 0

/-- The running sum after point n is the sum of the sums of blocks 0 … n. -/
theorem running_eq (c : Dev nD) : ∀ (n : ℕ) (h : n < cfg0.N), running m c n h = ∑ s ∈ Finset.range (n + 1), blockSumN m c s
  | 0, h => by
    rw [Finset.sum_range_one]
    unfold blockSumN
    rw [dif_pos h]
    rfl
  | n + 1, h => by
    rw [Finset.sum_range_succ, ← running_eq c n (Nat.lt_of_succ_lt h)]
    unfold blockSumN
    rw [dif_pos h]
    rfl

/-- The sum of all blocks' sums is the sum of the elements' terms over the flattened arguments. -/
theorem total_eq (hf : S32x1x512x512.ShapeCasts ⟨1, ![8388608]⟩) (c : Dev nD) :
    total m c = ∑ i, term (flatten hf (m ((c : Thread nD τ).loc main_arg0)) i)
      (flatten hf (m ((c : Thread nD τ).loc main_arg1)) i) (flatten hf (m ((c : Thread nD τ).loc main_arg2)) i) := by
  have hN : cfg0.N = 16 := N_0
  rw [sum_flat_blocks]
  show running m c 15 _ = _
  rw [running_eq, Finset.sum_range]
  refine Finset.sum_congr rfl fun s _ => ?_
  have hs : s.val < cfg0.N := by have := s.isLt; omega
  unfold blockSumN
  rw [dif_pos hs]
  unfold blockSum
  refine Finset.sum_congr rfl fun j _ => ?_
  rw [block0_apply m hf c ⟨s.val, hs⟩ s rfl j, block1_apply m hf c ⟨s.val, hs⟩ s rfl j, block2_apply m hf c ⟨s.val, hs⟩ s rfl j]

/-- So the kernel's result is the mean of the terms over the flattened arguments. -/
theorem result_eq (hf : S32x1x512x512.ShapeCasts ⟨1, ![8388608]⟩) (c : Dev nD) :
    Ideal.div (total m c) count = mean (flatten hf (m ((c : Thread nD τ).loc main_arg0)))
      (flatten hf (m ((c : Thread nD τ).loc main_arg1))) (flatten hf (m ((c : Thread nD τ).loc main_arg2))) := by
  unfold mean
  rw [total_eq m hf c]

end Cert.KernelIdeal.KValue

end
-- ==== Proof.lean ====
/-
  The weighted binary cross-entropy kernel against its reference, over the extended reals.

  Both programs take probabilities p, targets t and hard-negative weights n, three arrays of 32 × 1 × 512 × 512, and
  return one number: the mean, over all 2²³ elements, of
      w(t, n) · −( t · max(log p, −100) + (1 − t) · max(log(1 − p), −100) ),
  where w(t, n) is 1 + n for n > 0, else 1 for t > 0 or n = 0, else 0 (`Cert.Wbce.term`, `Cert.Wbce.mean`).

  The reference flattens the arrays, computes the terms, sums them from zero and divides by 2²³. The kernel reshapes
  the arrays to 16384 rows of 512 lanes and walks 16 row blocks of 1024 rows: at each block it computes the same terms,
  sums them over lanes and then over rows, and adds that to an accumulator it zeroes at the first block; after the
  last block the accumulator is copied out and the host divides it by 2²³. At the extended reals the two element
  terms are one function (the host's logarithms and negation are the kernel's; `0 − x` is `−x`), and the two sums
  are the same sum in another grouping: addition of extended reals is commutative and associative, so no element
  needs to be finite, and the precondition is not used by the value claim.

  The three frames are the generated frame runs (the reference's is its generated run with the result dropped);
  the idealization rewrote nothing, so `preserves` is trivial.
-/
import proofs.«173039_j26989574488433_1_alg».proof.Defs
import proofs.«173039_j26989574488433_1_alg».proof.Proof.Gen.Kernel
import proofs.«173039_j26989574488433_1_alg».proof.Proof.Gen.Kernel.Skeleton
import proofs.«173039_j26989574488433_1_alg».proof.Proof.Gen.Kernel.Launch
import proofs.«173039_j26989574488433_1_alg».proof.Proof.Gen.Kernel.Points
import proofs.«173039_j26989574488433_1_alg».proof.Proof.Gen.Kernel.Frame
import proofs.«173039_j26989574488433_1_alg».proof.Proof.Gen.KernelIdeal
import proofs.«173039_j26989574488433_1_alg».proof.Proof.Gen.KernelIdeal.Skeleton
import proofs.«173039_j26989574488433_1_alg».proof.Proof.Gen.KernelIdeal.Launch
import proofs.«173039_j26989574488433_1_alg».proof.Proof.Gen.KernelIdeal.Points
import proofs.«173039_j26989574488433_1_alg».proof.Proof.Gen.KernelIdeal.Frame
import proofs.«173039_j26989574488433_1_alg».proof.Proof.Gen.ReferenceIdeal
import proofs.«173039_j26989574488433_1_alg».proof.Proof.Gen.ReferenceIdeal.Run
import proofs.«173039_j26989574488433_1_alg».proof.Proof.Gen.ReferenceIdeal.Read
import proofs.«173039_j26989574488433_1_alg».proof.Proof.Gen.Pre_finite_inputs
import proofs.«173039_j26989574488433_1_alg».proof.Proof.RefValue
import proofs.«173039_j26989574488433_1_alg».proof.Proof.KBridge
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel ends at the sum of its 16 blocks' sums divided by the count and the
    reference at the sum over the flattened arrays divided by the count: both are the mean of the elements' terms. -/
theorem algebraic : Cert.algebraic_KernelIdeal_ReferenceIdeal := by
  intro m ρ m' ρ' _ hagree
  refine ⟨fun c => fun _ => Ideal.div (Cert.KernelIdeal.KValue.total m c) Cert.Wbce.count,
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v29_eq _ _ _).trans ?_
  rw [Cert.ReferenceIdeal.RefValue.result_eq, (hagree c).1, (hagree c).2.1, (hagree c).2.2]
  funext _
  exact (Cert.KernelIdeal.KValue.result_eq m Cert.ReferenceIdeal.Gen.shapeCasts_S32x1x512x512_S8388608 c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
